-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S1600000x32 : Shape := ⟨2, ![1600000, 32]⟩
abbrev S1024x32 : Shape := ⟨2, ![1024, 32]⟩
abbrev S1600000 : Shape := ⟨1, ![1600000]⟩
abbrev S192x128 : Shape := ⟨2, ![192, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1024x32 : S_.BroadcastsInDim S1024x32 (![] : Fin 0 → Fin S1024x32.rank)
  reducesTo_S1024x32_S_d0_1 : S1024x32.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg4 : IVec S1600000 32) (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_c_14 : IVec S_ 32 := constantI S_ 32 4294966272#32
  let main_v39 : IVec S1600000 32 := broadcastInDim S1600000 ![] bcast_S_S1600000 main_c_14
  let main_v40 : IVec S1600000 1 := cmpi .sge main_arg4 main_v39
  let main_c_15 : IVec S_ 32 := constantI S_ 32 1024#32
  let main_v41 : IVec S1600000 32 := broadcastInDim S1600000 ![] bcast_S_S1600000 main_c_15
  let main_v42 : IVec S1600000 1 := cmpi .slt main_arg4 main_v41
  let main_v43 : IVec S1600000 1 := andi main_v40 main_v42
  let main_c_16 : IVec S_ 1 := constantI S_ 1 1#1
  let main_v44 : IVec S_ 1 := (fun x v => Host.reduce IntOp.andi x v reducesTo_S1600000_S_d0 h_S_) main_v43 main_c_16
  let main_v45 : IVec S_ 1 := andi main_v38 main_v44
  main_v45

def fn_part1 {F : FTy → Type} [FloatOps F] (main_arg4 : IVec S1600000 32) (main_arg5 : FVec F S192x128 .f32) (main_arg6 : FVec F S128 .f32) (main_arg7 : FVec F S128x32 .f32) (main_arg8 : FVec F S32 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S192x128 .f32 := Host.absf main_arg5
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg4 main_arg8 main_v33

def fn {F : FTy → Type} [FloatOps F] (main_arg0 : FVec F S1600000x64 .f32) (main_arg1 : FVec F S1600000x64 .f32) (main_arg2 : FVec F S1600000x32 .f32) (main_arg3 : FVec F S1024x32 .f32) (main_arg4 : IVec S1600000 32) (main_arg5 : FVec F S192x128 .f32) (main_arg6 : FVec F S128 .f32) (main_arg7 : FVec F S128x32 .f32) (main_arg8 : FVec F S32 .f32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_arg5 main_arg6 main_arg7 main_arg8 main_v13 main_v16
-- ==== Kernel.lean ====
abbrev S1600000x64 : Shape := ⟨2, ![1600000, 64]⟩
abbrev S1600000x32 : Shape := ⟨2, ![1600000, 32]⟩
abbrev S1024x32 : Shape := ⟨2, ![1024, 32]⟩
abbrev S1600000 : Shape := ⟨1, ![1600000]⟩
abbrev S192x128 : Shape := ⟨2, ![192, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S32x128 : Shape := ⟨2, ![32, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x128 : Shape := ⟨2, ![1, 128]⟩
abbrev S1x32 : Shape := ⟨2, ![1, 32]⟩
abbrev S8000x64 : Shape := ⟨2, ![8000, 64]⟩
abbrev S8000x32 : Shape := ⟨2, ![8000, 32]⟩
abbrev S8000x128 : Shape := ⟨2, ![8000, 128]⟩

abbrev nBuf : Space → Nat
  | .hbm => 39
  | .vmem => 17
  | .smem => 0
  | _ => 0

abbrev bufTy : (tb : Table) → Fin (tcTables nBuf tb) → BufTy
  | .hbm, ⟨0, _⟩ => ⟨S1600000x64, .f32⟩
  | .hbm, ⟨1, _⟩ => ⟨S1600000x64, .f32⟩
  | .hbm, ⟨2, _⟩ => ⟨S1600000x32, .f32⟩
  | .hbm, ⟨3, _⟩ => ⟨S1024x32, .f32⟩
  | .hbm, ⟨4, _⟩ => ⟨S1600000, .i32⟩
  | .hbm, ⟨5, _⟩ => ⟨S192x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S64x128, .f32⟩
  | .hbm, ⟨10, _⟩ => ⟨S64x128, .f32⟩
  | .hbm, ⟨11, _⟩ => ⟨S32x128, .f32⟩
  | .hbm, ⟨12, _⟩ => ⟨S32x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x32, .f32⟩
  | .hbm, ⟨32, _⟩ => ⟨S1600000x32, .i1⟩
  | .hbm, ⟨33, _⟩ => ⟨S_, .f32⟩
  | .hbm, ⟨34, _⟩ => ⟨S1600000x32, .f32⟩
  | .hbm, ⟨35, _⟩ => ⟨S1600000x32, .f32⟩
  | .hbm, ⟨36, _⟩ => ⟨S1x128, .f32⟩
  | .hbm, ⟨37, _⟩ => ⟨S1x32, .f32⟩
  | .hbm, ⟨38, _⟩ => ⟨S1600000x32, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x32, .f32⟩
  | .local _ .vmem, ⟨5, _⟩ => ⟨S8000x32, .f32⟩
  | .local _ .vmem, ⟨6, _⟩ => ⟨S8000x32, .f32⟩
  | .local _ .vmem, ⟨7, _⟩ => ⟨S8000x32, .f32⟩
  | .local _ .vmem, ⟨8, _⟩ => ⟨S64x128, .f32⟩
  | .local _ .vmem, ⟨9, _⟩ => ⟨S64x128, .f32⟩
  | .local _ .vmem, ⟨10, _⟩ => ⟨S32x128, .f32⟩
  | .local _ .vmem, ⟨11, _⟩ => ⟨S32x128, .f32⟩
  | .local _ .vmem, ⟨12, _⟩ => ⟨S1x128, .f32⟩
  | .local _ .vmem, ⟨13, _⟩ => ⟨S128x32, .f32⟩
  | .local _ .vmem, ⟨14, _⟩ => ⟨S1x32, .f32⟩
  | .local _ .vmem, ⟨15, _⟩ => ⟨S8000x32, .f32⟩
  | .local _ .vmem, ⟨16, _⟩ => ⟨S8000x32, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S192x128_S64x128_0_0 : S192x128.Slices ![0, 0] S64x128
  slices_S192x128_S64x128_64_0 : S192x128.Slices ![64, 0] S64x128
  slices_S192x128_S32x128_128_0 : S192x128.Slices ![128, 0] S32x128
  slices_S192x128_S32x128_160_0 : S192x128.Slices ![160, 0] S32x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  shapeCasts_S128_S1x128 : S128.ShapeCasts S1x128
  shapeCasts_S32_S1x32 : S32.ShapeCasts S1x32
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  gather_S1024x32_S1600000x1_S1600000x32_1_0_n_n_0_1_132_wf : GatherDims.WF S1024x32 S1600000x1 S1600000x32 [1] [0] [] [0] [] 1 ![1, 32]
  dot_S8000x64_S64x128_S8000x128_1_0_0_1_n_n_wf : DotDims.WF S8000x64 S64x128 S8000x128 [1] [0] [0] [1] [] []
  dot_S8000x32_S32x128_S8000x128_1_0_0_1_n_n_wf : DotDims.WF S8000x32 S32x128 S8000x128 [1] [0] [0] [1] [] []
  dot_S8000x128_S128x32_S8000x32_1_0_0_1_n_n_wf : DotDims.WF S8000x128 S128x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .f32 = 32 ∨ (Rect.block (s := S1600000x32) S8000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S1600000x32.size a
  hwx0_3 : ∀ i : grid0.Coords, EltTy.bits .f32 = 32 ∨ (Rect.block (s := S1600000x32) S8000x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x32.size a ≤ S128x32.size a
  hwx0_9 : ∀ i : grid0.Coords, EltTy.bits .f32 = 32 ∨ (Rect.block (s := S128x32) S128x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x32.size a ≤ S1600000x32.size a
  hwx0_11 : ∀ i : grid0.Coords, EltTy.bits .f32 = 32 ∨ (Rect.block (s := S1600000x32) S8000x32.size (cc0_transform_11 i) (hinb0_11 i)).WholeWords (EltTy.packing .f32)

variable [Facts₀]

def gather_S1024x32_S1600000x1_S1600000x32_1_0_n_n_0_1_132 : GatherDims S1024x32 S1600000x1 S1600000x32 where
  offsetDims := [1]
  collapsedSliceDims := [0]
  operandBatchingDims := []
  startIndicesBatchingDims := []
  startIndexMap := [0]
  indexVectorDim := 1
  sliceSizes := ![1, 32]
  wf := gather_S1024x32_S1600000x1_S1600000x32_1_0_n_n_0_1_132_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S8000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1600000x64 : Shape := ⟨2, ![1600000, 64]⟩
abbrev S1600000x32 : Shape := ⟨2, ![1600000, 32]⟩
abbrev S1024x32 : Shape := ⟨2, ![1024, 32]⟩
abbrev S1600000 : Shape := ⟨1, ![1600000]⟩
abbrev S192x128 : Shape := ⟨2, ![192, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S32x128 : Shape := ⟨2, ![32, 128]⟩
abbrev S1600000x128 : Shape := ⟨2, ![1600000, 128]⟩
abbrev S1024x128 : Shape := ⟨2, ![1024, 128]⟩
abbrev S_ : Shape := ⟨0, ![]⟩
abbrev S1600000x1 : Shape := ⟨2, ![1600000, 1]⟩
abbrev S1x128 : Shape := ⟨2, ![1, 128]⟩
abbrev S1x32 : Shape := ⟨2, ![1, 32]⟩

abbrev nBuf : Space → Nat
  | .hbm => 39
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S1600000x64, .f32⟩
  | .hbm, ⟨2, _⟩ => ⟨S1600000x32, .f32⟩
  | .hbm, ⟨3, _⟩ => ⟨S1024x32, .f32⟩
  | .hbm, ⟨4, _⟩ => ⟨S1600000, .i32⟩
  | .hbm, ⟨5, _⟩ => ⟨S192x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S64x128, .f32⟩
  | .hbm, ⟨10, _⟩ => ⟨S64x128, .f32⟩
  | .hbm, ⟨11, _⟩ => ⟨S32x128, .f32⟩
  | .hbm, ⟨12, _⟩ => ⟨S32x128, .f32⟩
  | .hbm, ⟨13, _⟩ => ⟨S1600000x128, .f32⟩
  | .hbm, ⟨14, _⟩ => ⟨S1600000x128, .f32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S1024x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x128, .f32⟩
  | .hbm, ⟨29, _⟩ => ⟨S1x128, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S1600000x32, .f32⟩
  | .hbm, ⟨36, _⟩ => ⟨S1x32, .f32⟩
  | .hbm, ⟨37, _⟩ => ⟨S1600000x32, .f32⟩
  | .hbm, ⟨38, _⟩ => ⟨S1600000x32, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  slices_S192x128_S64x128_0_0 : S192x128.Slices ![0, 0] S64x128
  slices_S192x128_S64x128_64_0 : S192x128.Slices ![64, 0] S64x128
  slices_S192x128_S32x128_128_0 : S192x128.Slices ![128, 0] S32x128
  slices_S192x128_S32x128_160_0 : S192x128.Slices ![160, 0] S32x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  dot_S1600000x64_S64x128_S1600000x128_1_0_0_1_n_n_wf : DotDims.WF S1600000x64 S64x128 S1600000x128 [1] [0] [0] [1] [] []
  dot_S1600000x32_S32x128_S1600000x128_1_0_0_1_n_n_wf : DotDims.WF S1600000x32 S32x128 S1600000x128 [1] [0] [0] [1] [] []
  dot_S1024x32_S32x128_S1024x128_1_0_0_1_n_n_wf : DotDims.WF S1024x32 S32x128 S1024x128 [1] [0] [0] [1] [] []
  gather_S1024x128_S1600000x1_S1600000x128_1_0_n_n_0_1_1128_wf : GatherDims.WF S1024x128 S1600000x1 S1600000x128 [1] [0] [] [0] [] 1 ![1, 128]
  dot_S1600000x128_S128x32_S1600000x32_1_0_0_1_n_n_wf : DotDims.WF S1600000x128 S128x32 S1600000x32 [1] [0] [0] [1] [] []

variable [Facts₀]

def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def dot_S1600000x32_S32x128_S1600000x128_1_0_0_1_n_n : DotDims S1600000x32 S32x128 S1600000x128 where
  lhsContracting := [1]
  rhsContracting := [0]
  lhsNonContracting := [0]
  rhsNonContracting := [1]
  lhsBatch := []
  rhsBatch := []
  wf := dot_S1600000x32_S32x128_S1600000x128_1_0_0_1_n_n_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf
def gather_S1024x128_S1600000x1_S1600000x128_1_0_n_n_0_1_1128 : GatherDims S1024x128 S1600000x1 S1600000x128 where
  offsetDims := [1]
  collapsedSliceDims := [0]
  operandBatchingDims := []
  startIndicesBatchingDims := []
  startIndexMap := [0]
  indexVectorDim := 1
  sliceSizes := ![1, 128]
  wf := gather_S1024x128_S1600000x1_S1600000x128_1_0_n_n_0_1_1128_wf
def dot_S1600000x128_S128x32_S1600000x32_1_0_0_1_n_n : DotDims S1600000x128 S128x32 S1600000x32 where
  lhsContracting := [1]
  rhsContracting := [0]
  lhsNonContracting := [0]
  rhsNonContracting := [1]
  lhsBatch := []
  rhsBatch := []
  wf := dot_S1600000x128_S128x32_S1600000x32_1_0_0_1_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelBody.lean ====
/-
  What the kernel's body computes from its blocks, one entry at a time, over the extended reals.

  A block holds 8000 edges. The body multiplies the block's source, target, edge and gathered-global features with the
  four row blocks of the first layer's weight (each product accumulated into zero: a plain sum over the contracted
  axis), adds them left to right, adds the bias row, cuts below at zero, multiplies with the second layer's weight and
  adds its bias row. The changes of float format in between are the identity on extended reals.
-/
import proofs.«429387_j23562190586356_1_alg».proof.Proof.Gen.KernelIdeal.Skeleton
import proofs.«429387_j23562190586356_1_alg».proof.Proof.LibMatmulAt
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## Where the three products' dimension numbers read their operands: the left at (row, k), the right at (k, column) -/

theorem dotA_l0 (i : S8000x128.Idx) (q : dot_S8000x64_S64x128_S8000x128_1_0_0_1_n_n.contr.Idx) : (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem dotA_l1 (i : S8000x128.Idx) (q : dot_S8000x64_S64x128_S8000x128_1_0_0_1_n_n.contr.Idx) : (dot_S8000x64_S64x128_S8000x128_1_0_0_1_n_n.lhsIdx i q 1).val = (q ⟨0, by decide⟩).val :=
  dot_S8000x64_S64x128_S8000x128_1_0_0_1_n_n.lhsIdx_val_of_single rfl i q
theorem dotA_r0 (i : S8000x128.Idx) (q : dot_S8000x64_S64x128_S8000x128_1_0_0_1_n_n.contr.Idx) : (dot_S8000x64_S64x128_S8000x128_1_0_0_1_n_n.rhsIdx i q 0).val = (q ⟨0, by decide⟩).val :=
  dot_S8000x64_S64x128_S8000x128_1_0_0_1_n_n.rhsIdx_val_of_single rfl i q
theorem dotA_r1 (i : S8000x128.Idx) (q : dot_S8000x64_S64x128_S8000x128_1_0_0_1_n_n.contr.Idx) : (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

theorem dotB_l0 (i : S8000x128.Idx) (q : dot_S8000x32_S32x128_S8000x128_1_0_0_1_n_n.contr.Idx) : (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem dotB_l1 (i : S8000x128.Idx) (q : dot_S8000x32_S32x128_S8000x128_1_0_0_1_n_n.contr.Idx) : (dot_S8000x32_S32x128_S8000x128_1_0_0_1_n_n.lhsIdx i q 1).val = (q ⟨0, by decide⟩).val :=
  dot_S8000x32_S32x128_S8000x128_1_0_0_1_n_n.lhsIdx_val_of_single rfl i q
theorem dotB_r0 (i : S8000x128.Idx) (q : dot_S8000x32_S32x128_S8000x128_1_0_0_1_n_n.contr.Idx) : (dot_S8000x32_S32x128_S8000x128_1_0_0_1_n_n.rhsIdx i q 0).val = (q ⟨0, by decide⟩).val :=
  dot_S8000x32_S32x128_S8000x128_1_0_0_1_n_n.rhsIdx_val_of_single rfl i q
theorem dotB_r1 (i : S8000x128.Idx) (q : dot_S8000x32_S32x128_S8000x128_1_0_0_1_n_n.contr.Idx) : (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl

theorem dotC_l0 (i : S8000x32.Idx) (q : dot_S8000x128_S128x32_S8000x32_1_0_0_1_n_n.contr.Idx) : (dot_S8000x128_S128x32_S8000x32_1_0_0_1_n_n.lhsIdx i q 0).val = (i 0).val := by
  unfold DotDims.lhsIdx
  rw [dif_neg (show ¬(0 : Fin S8000x128.rank) ∈ dot_S8000x128_S128x32_S8000x32_1_0_0_1_n_n.lhsBatch by decide), dif_pos (show (0 : Fin S8000x128.rank) ∈ dot_S8000x128_S128x32_S8000x32_1_0_0_1_n_n.lhsNonContracting by decide)]
  rfl
theorem dotC_l1 (i : S8000x32.Idx) (q : dot_S8000x128_S128x32_S8000x32_1_0_0_1_n_n.contr.Idx) : (dot_S8000x128_S128x32_S8000x32_1_0_0_1_n_n.lhsIdx i q 1).val = (q ⟨0, by decide⟩).val :=
  dot_S8000x128_S128x32_S8000x32_1_0_0_1_n_n.lhsIdx_val_of_single rfl i q
theorem dotC_r0 (i : S8000x32.Idx) (q : dot_S8000x128_S128x32_S8000x32_1_0_0_1_n_n.contr.Idx) : (dot_S8000x128_S128x32_S8000x32_1_0_0_1_n_n.rhsIdx i q 0).val = (q ⟨0, by decide⟩).val :=
  dot_S8000x128_S128x32_S8000x32_1_0_0_1_n_n.rhsIdx_val_of_single rfl i q
theorem dotC_r1 (i : S8000x32.Idx) (q : dot_S8000x128_S128x32_S8000x32_1_0_0_1_n_n.contr.Idx) : (dot_S8000x128_S128x32_S8000x32_1_0_0_1_n_n.rhsIdx i q 1).val = (i 1).val := by
  unfold DotDims.rhsIdx
  rw [dif_neg (show ¬(1 : Fin S128x32.rank) ∈ dot_S8000x128_S128x32_S8000x32_1_0_0_1_n_n.rhsBatch by decide), dif_pos (show (1 : Fin S128x32.rank) ∈ dot_S8000x128_S128x32_S8000x32_1_0_0_1_n_n.rhsNonContracting by decide)]
  rfl

/-- A 64-feature product into zero at (p, q). -/
theorem mulA_at {φ₁ φ₂ : FTy} (l : FVec Ideal S8000x64 φ₁) (r : FVec Ideal S64x128 φ₂) (p : Fin 8000) (q : Fin 128) :
    matmul dot_S8000x64_S64x128_S8000x128_1_0_0_1_n_n none l r (constant S8000x128 .f32 0x00000000#32) (ix2 p q) = ∑ k : Fin 64, l (ix2 p k) * r (ix2 k q) :=
  MatmulAt.matmul_zero_at dot_S8000x64_S64x128_S8000x128_1_0_0_1_n_n rfl rfl dotA_l0 dotA_l1 dotA_r0 dotA_r1 none l r p q

/-- A 32-feature product into zero at (p, q). -/
theorem mulB_at {φ₁ φ₂ : FTy} (l : FVec Ideal S8000x32 φ₁) (r : FVec Ideal S32x128 φ₂) (p : Fin 8000) (q : Fin 128) :
    matmul dot_S8000x32_S32x128_S8000x128_1_0_0_1_n_n none l r (constant S8000x128 .f32 0x00000000#32) (ix2 p q) = ∑ k : Fin 32, l (ix2 p k) * r (ix2 k q) :=
  MatmulAt.matmul_zero_at dot_S8000x32_S32x128_S8000x128_1_0_0_1_n_n rfl rfl dotB_l0 dotB_l1 dotB_r0 dotB_r1 none l r p q

/-- The second layer's product into zero at (p, q). -/
theorem mulC_at {φ₁ φ₂ : FTy} (l : FVec Ideal S8000x128 φ₁) (r : FVec Ideal S128x32 φ₂) (p : Fin 8000) (q : Fin 32) :
    matmul dot_S8000x128_S128x32_S8000x32_1_0_0_1_n_n none l r (constant S8000x32 .f32 0x00000000#32) (ix2 p q) = ∑ k : Fin 128, l (ix2 p k) * r (ix2 k q) :=
  MatmulAt.matmul_zero_at dot_S8000x128_S128x32_S8000x32_1_0_0_1_n_n rfl rfl dotC_l0 dotC_l1 dotC_r0 dotC_r1 none l r p q

/-- The hidden block at (r, j): the four sums left to right, the bias row's entry `j`, cut below at zero. -/
theorem hidden_at (v0 v2 : Vec Ideal S8000x64 .f32) (v4 v6 : Vec Ideal S8000x32 .f32) (v9 v12 : Vec Ideal S64x128 .f32)
    (v15 v18 : Vec Ideal S32x128 .f32) (v28 : Vec Ideal S1x128 .f32) (r : Fin 8000) (j : Fin 128) :
    k0_pay2 (F := Ideal) v0 v2 v4 v6 v9 v12 v15 v18 v28 (ix2 r j)
      = max (((((∑ k : Fin 64, v0 (ix2 r k) * v9 (ix2 k j)) + ∑ k : Fin 64, v2 (ix2 r k) * v12 (ix2 k j))
            + ∑ k : Fin 32, v4 (ix2 r k) * v15 (ix2 k j))
          + ∑ k : Fin 32, v6 (ix2 r k) * v18 (ix2 k j)) + v28 (ix2 (0 : Fin 1) j)) 0 := by
  unfold k0_pay2
  simp only [truncf_apply, maximumf_apply, addf_apply, broadcast_apply, mulA_at, mulB_at, shapeCast_self,
    broadcastTo_1b_ab_apply]
  show max _ (Ideal.ofBits .f32 0x00000000#32) = _
  rw [Ideal.ofBits_zero_f32]

/-- The output block at (r, q): the hidden row against column `q` of the second weight, plus the bias row's entry `q`. -/
theorem out_at (h : FVec Ideal S8000x128 .bf16) (v35 : Vec Ideal S128x32 .f32) (v38 : Vec Ideal S1x32 .f32) (r : Fin 8000) (q : Fin 32) :
    k0_pay1 (F := Ideal) h v35 v38 (ix2 r q) = (∑ j : Fin 128, h (ix2 r j) * v35 (ix2 j q)) + v38 (ix2 (0 : Fin 1) q) := by
  unfold k0_pay1
  simp only [truncf_apply, addf_apply, mulC_at, shapeCast_self, broadcastTo_1b_ab_apply]

end Cert.KernelIdeal.Body

end
-- ==== Proof.LibGatherRows.lean ====
/-
  A gather of whole rows of a matrix, read at one entry.

  The dimension numbers of `table[idx]` for a table of `N` rows and `C` columns and a column `idx` of `n` start
  indices: the result's axis 1 is the offset axis (it runs along a row), the table's axis 0 is collapsed and is the one
  axis a start index addresses, there is no batching axis, and the start indices' axis 1 holds the index vector (of
  length one). Entry (p, q) of the result is then the table at row `idx[p, 0]` — read as a signed integer and clamped
  into `[0, N − 1]`, as the gather clamps every start index — and column `q`. The five facts about the dimension
  numbers are hypotheses, so that the lemma serves any printed record of this kind.
-/
import Idealize.ShloMosaic.Lib.ValueIdx

namespace Idealize.ShloMosaic.GatherRows

open Idealize.ShloMosaic Idealize.ShloMosaic.ValueIdx

/-- Entry (p, q) of a row gather is the table at the clamped row `idx[p, 0]` and column `q`. -/
theorem gather_rows_apply {α : Type} {N C n w : Nat} (hN : 0 < N)
    (d : GatherDims (⟨2, ![N, C]⟩ : Shape) (⟨2, ![n, 1]⟩ : Shape) (⟨2, ![n, C]⟩ : Shape))
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec (⟨2, ![n, 1]⟩ : Shape) w) (p : Fin n) (q : Fin C) :
    Host.gather d x idx (ix2 p q)
      = x (ix2 (⟨min (idx (ix2 p (0 : Fin 1))).toInt.toNat (N - 1), by omega⟩ : Fin N) q) := by
  unfold Host.gather
  congr 1
  funext a
  apply Fin.ext
  have hb : ∀ a : Fin 2, a ∉ d.operandBatchingDims := fun a => by rw [hob]; exact List.not_mem_nil
  -- the result's one batch axis is axis 0, its one offset axis is axis 1
  have hbatch : ∀ X ∈ d.batchDims, X = (0 : Fin 2) := fun X hX => by
    have hX' : X ∉ d.offsetDims := by
      have := hX
      simp only [GatherDims.batchDims, Shape.kept, List.mem_filter] at this
      simpa using this.2
    rw [hoff] at hX'
    have hne : X ≠ 1 := fun h => hX' (by rw [h]; exact List.mem_singleton.mpr rfl)
    have hlt : X.val < 2 := X.isLt
    have hv : X.val ≠ 1 := fun h => hne (Fin.ext h)
    exact Fin.ext (by show X.val = 0; omega)
  have hoffX : ∀ X ∈ d.offsetDims, X = (1 : Fin 2) := fun X hX => by rw [hoff] at hX; exact List.mem_singleton.mp hX
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X ∈ d.batchDims, ((ix2 p q : (⟨2, ![n, C]⟩ : Shape).Idx) X).val = p.val := fun X hX => by
        rw [hbatch X hX]
      exact e _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    simp only [Nat.add_zero, GatherDims.start, dif_neg hm, Nat.zero_add, GatherDims.offCoord, dif_pos hk]
    have e : ∀ X ∈ d.offsetDims, ((ix2 p q : (⟨2, ![n, C]⟩ : Shape).Idx) X).val = q.val := fun X hX => by
      rw [hoffX X hX]
    exact e _ (List.getElem_mem _)

end Idealize.ShloMosaic.GatherRows
-- ==== Proof.Spec.lean ====
/-
  The edge model's value over the extended reals, one entry at a time, and the index words it reads.

  For an edge `e` and a hidden unit `j` the first layer is the sum of four products — the source node's 64 features
  against rows 0–63 of `W1`, the target node's against rows 64–127, the edge's 32 features against rows 128–159 and the
  32 global features of the edge's graph against rows 160–191 — plus the bias, cut below at zero. The graph of edge `e`
  is the word `batch[e]`, read as numpy reads an index (a negative one counts from the end of the 1024 graphs) and then
  clamped into the table as a gather clamps. The second layer is the product of the hidden row with column `q` of `W2`
  plus the bias. The sums are kept in the association both programs use, so no law of the extended reals is needed to
  join them.

  Whether the graph's features are gathered before the product (the kernel) or the product's rows are gathered after it
  (the reference) makes no difference: a row of a product is the product of the row.
-/
import Idealize.ShloMosaic.Lib.ValueIdx
import Idealize.ShloMosaic.Lib.Affine

noncomputable section

open scoped BigOperators

namespace Cert.EdgeModel

open Idealize.ShloMosaic Idealize.ShloMosaic.ValueIdx

/-! ## Index words -/

/-- numpy's reading of an index into an axis of 1024: a negative word counts from the end. -/
def wrapIdx (b : BitVec 32) : BitVec 32 := Scalar.select (IntOp.cmpi .slt b 0#32) (IntOp.addi b 1024#32) b

/-- The row of a 1024-row table that a start index reads: the word as a signed integer, clamped into the table. -/
def rowOf (w : BitVec 32) : Fin 1024 := ⟨min w.toInt.toNat 1023, by omega⟩

theorem ofBool_eq_one (b : Bool) : BitVec.ofBool b = 1#1 ↔ b = true := by cases b <;> decide
theorem slt_iff (a b : BitVec 32) : IntOp.cmpi .slt a b = 1#1 ↔ a.toInt < b.toInt := by
  simp only [IntOp.cmpi, ofBool_eq_one, BitVec.slt, decide_eq_true_eq]
theorem sle_iff (a b : BitVec 32) : IntOp.cmpi .sle a b = 1#1 ↔ a.toInt ≤ b.toInt := by
  simp only [IntOp.cmpi, ofBool_eq_one, BitVec.sle, decide_eq_true_eq]
theorem sge_iff (a b : BitVec 32) : IntOp.cmpi .sge a b = 1#1 ↔ b.toInt ≤ a.toInt := by
  simp only [IntOp.cmpi, ofBool_eq_one, BitVec.sle, decide_eq_true_eq]

/-- A word in [−1024, 1024) wraps into [0, 1023]: adding 1024 to a negative one does not overflow. -/
theorem wrapIdx_toInt (b : BitVec 32) (h1 : -1024 ≤ b.toInt) (h2 : b.toInt < 1024) :
    0 ≤ (wrapIdx b).toInt ∧ (wrapIdx b).toInt ≤ 1023 := by
  have c2 : (1024#32 : BitVec 32).toInt = 1024 := by decide
  have c3 : (0#32 : BitVec 32).toInt = 0 := by decide
  unfold wrapIdx
  by_cases hn : b.toInt < 0
  · rw [(slt_iff b 0#32).2 (by rw [c3]; exact hn), select_one]
    have ha : (IntOp.addi b 1024#32).toInt = b.toInt + 1024 := by
      unfold IntOp.addi
      rw [BitVec.toInt_add, c2]
      exact Int.bmod_eq_of_le (by omega) (by omega)
    rw [ha]; omega
  · have hz : IntOp.cmpi .slt b 0#32 = 0#1 :=
      eq_zero_of_ne_one (fun h => hn (by have := (slt_iff b 0#32).1 h; rwa [c3] at this))
    rw [hz, select_zero]
    omega

/-- The range test on the wrapped word — at least 0 and at most 1023, as two signed compares joined by `and` — holds
    of a word whose own range test, at least −1024 and below 1024, holds. -/
theorem wrapIdx_inRange (b : BitVec 32)
    (h : IntOp.andi (IntOp.cmpi .sge b 4294966272#32) (IntOp.cmpi .slt b 1024#32) = 1#1) :
    IntOp.andi (IntOp.cmpi .sge (wrapIdx b) 0#32) (IntOp.cmpi .sle (wrapIdx b) 1023#32) = 1#1 := by
  obtain ⟨h1, h2⟩ := IntOp.andi_eq_one.1 h
  have c1 : (4294966272#32 : BitVec 32).toInt = -1024 := by decide
  have c2 : (1024#32 : BitVec 32).toInt = 1024 := by decide
  have c3 : (0#32 : BitVec 32).toInt = 0 := by decide
  have c4 : (1023#32 : BitVec 32).toInt = 1023 := by decide
  have h1' := (sge_iff _ _).1 h1
  have h2' := (slt_iff _ _).1 h2
  rw [c1] at h1'
  rw [c2] at h2'
  obtain ⟨w1, w2⟩ := wrapIdx_toInt b h1' h2'
  exact IntOp.andi_eq_one.2 ⟨(sge_iff _ _).2 (by rw [c3]; exact w1), (sle_iff _ _).2 (by rw [c4]; exact w2)⟩

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ## Rows of the first layer's weight -/

/-- Row `k` of the source block (rows 0–63). -/
abbrev rowSrc (k : Fin 64) : Fin 192 := ⟨k.val, by omega⟩
/-- Row `k` of the target block (rows 64–127). -/
abbrev rowDst (k : Fin 64) : Fin 192 := ⟨64 + k.val, by omega⟩
/-- Row `k` of the edge block (rows 128–159). -/
abbrev rowEdge (k : Fin 32) : Fin 192 := ⟨128 + k.val, by omega⟩
/-- Row `k` of the global block (rows 160–191). -/
abbrev rowGlob (k : Fin 32) : Fin 192 := ⟨160 + k.val, by omega⟩

/-! ## The two layers -/

section Layers

variable (src dst : FVec Ideal (⟨2, ![1600000, 64]⟩ : Shape) .f32) (edge : FVec Ideal (⟨2, ![1600000, 32]⟩ : Shape) .f32)
  (u : FVec Ideal (⟨2, ![1024, 32]⟩ : Shape) .f32) (batch : IVec (⟨1, ![1600000]⟩ : Shape) 32)
  (W1 : FVec Ideal (⟨2, ![192, 128]⟩ : Shape) .f32) (b1 : FVec Ideal (⟨1, ![128]⟩ : Shape) .f32)
  (W2 : FVec Ideal (⟨2, ![128, 32]⟩ : Shape) .f32) (b2 : FVec Ideal (⟨1, ![32]⟩ : Shape) .f32)

/-- The graph of edge `e`. -/
def graphOf (e : Fin 1600000) : Fin 1024 := rowOf (wrapIdx (batch (ix1 e)))

/-- Hidden unit `j` of edge `e`: the four products and the bias, cut below at zero. -/
def hidden (e : Fin 1600000) (j : Fin 128) : EReal :=
  max (((((∑ k : Fin 64, src (ix2 e k) * W1 (ix2 (rowSrc k) j)) + ∑ k : Fin 64, dst (ix2 e k) * W1 (ix2 (rowDst k) j))
        + ∑ k : Fin 32, edge (ix2 e k) * W1 (ix2 (rowEdge k) j))
      + ∑ k : Fin 32, u (ix2 (graphOf batch e) k) * W1 (ix2 (rowGlob k) j)) + b1 (ix1 j)) 0

/-- Output `q` of edge `e`. -/
def outAt (e : Fin 1600000) (q : Fin 32) : EReal :=
  (∑ j : Fin 128, hidden src dst edge u batch W1 b1 e j * W2 (ix2 j q)) + b2 (ix1 q)

/-- The whole result array. -/
def out : FVec Ideal (⟨2, ![1600000, 32]⟩ : Shape) .f32 :=
  fun i => outAt src dst edge u batch W1 b1 W2 b2 (i 0) (i 1)

end Layers

end Cert.EdgeModel

end
-- ==== Proof.KernelEntry.lean ====
/-
  What the kernel region finds in the arrays the host operations before it wrote.

  Four row blocks of the first weight (plain slices), the two bias vectors as rows (reshapes), and the rows of the
  global-feature table taken at the edges' graph words. The take wraps a negative word, tests the wrapped word against
  [0, 1023], gathers the row at the wrapped word (clamped, as every gather clamps) and keeps it where the test holds,
  putting a not-a-number pattern elsewhere. Where every graph word is in [−1024, 1024) the test holds at every edge, so
  the array is the table's rows at the edges' graphs.
-/
import proofs.«429387_j23562190586356_1_alg».proof.Proof.Gen.KernelIdeal.Frame
import proofs.«429387_j23562190586356_1_alg».proof.Proof.LibGatherRows
import proofs.«429387_j23562190586356_1_alg».proof.Proof.Spec
import Idealize.ShloMosaic.Lib.StableHlo.Run
import Idealize.ShloMosaic.Lib.StableHlo.Predicate
import Idealize.ShloMosaic.Lib.Pipeline.Value
import Idealize.ShloMosaic.Lib.ValueLayout
import Idealize.ShloMosaic.Lib.ValueIdx
import Idealize.ShloMosaic.PureOps.Reduce

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx
open Cert.EdgeModel

/-! ## The take, as the host operations compute it -/

/-- Every graph word read as numpy reads an index. -/
def wrapVec (b : IVec S1600000 32) : IVec S1600000 32 :=
  select (cmpi .slt b (broadcastInDim S1600000 ![] bcast_S_S1600000 (constantI S_ 32 0#32)))
    (addi b (broadcastInDim S1600000 ![] bcast_S_S1600000 (constantI S_ 32 1024#32))) b

/-- The wrapped words as a column of start indices. -/
def startCol (b : IVec S1600000 32) : IVec S1600000x1 32 :=
  broadcastInDim S1600000x1 ![0] bcast_S1600000_S1600000x1_0 (wrapVec b)

/-- The range test on the column: at least 0 and at most 1023. -/
def rowOk (b : IVec S1600000 32) : IVec S1600000x1 1 :=
  andi (cmpi .sge (startCol b) (broadcastInDim S1600000x1 ![] bcast_S_S1600000x1 (constantI S_ 32 0#32)))
    (cmpi .sle (startCol b) (broadcastInDim S1600000x1 ![0, 1] bcast_S1x1_S1600000x1_0_1
      (broadcastInDim S1x1 ![1] bcast_S1_S1x1_1 (constantI S1 32 1023#32))))

/-- The test reduced along the column's one entry per edge. -/
def inTable (b : IVec S1600000 32) : IVec S1600000 1 :=
  Host.reduce IntOp.andi (rowOk b) (constantI S_ 1 1#1) reducesTo_S1600000x1_S1600000_d1 h_S_

variable {F : FTy → Type} [FloatOps F]

/-- The rows taken: the gathered row where the test holds, a not-a-number pattern elsewhere. -/
def takeRows (u : FVec F S1024x32 .f32) (b : IVec S1600000 32) : FVec F S1600000x32 .f32 :=
  select (broadcastInDim S1600000x32 ![0] bcast_S1600000_S1600000x32_0 (inTable b))
    (Host.gather gather_S1024x32_S1600000x1_S1600000x32_1_0_n_n_0_1_132 u (startCol b))
    (broadcastInDim S1600000x32 ![] bcast_S_S1600000x32 (constant S_ .f32 0x7FC00000#32))

theorem wrapVec_at (b : IVec S1600000 32) (e : Fin 1600000) : wrapVec b (ix1 e) = wrapIdx (b (ix1 e)) := by
  show Scalar.select (IntOp.cmpi .slt (b (ix1 e)) (broadcastInDim S1600000 ![] bcast_S_S1600000 (constantI S_ 32 0#32) (ix1 e)))
    (IntOp.addi (b (ix1 e)) (broadcastInDim S1600000 ![] bcast_S_S1600000 (constantI S_ 32 1024#32) (ix1 e))) (b (ix1 e)) = _
  rw [Predicate.bcast_scalar _ (by decide), Predicate.bcast_scalar _ (by decide)]
  rfl

theorem startCol_at (b : IVec S1600000 32) (e : Fin 1600000) (z : Fin 1) : startCol b (ix2 e z) = wrapIdx (b (ix1 e)) := by
  unfold startCol
  rw [broadcastInDim_apply _ bcast_S1600000_S1600000x1_0 _ (ix2 e z) (ix1 e) (fun a => match a with
    | ⟨0, _⟩ => by show e.val = if (1600000 : Nat) = 1 then 0 else e.val; rw [if_neg (by decide)])]
  exact wrapVec_at b e

/-- Where every word passes its range test, the wrapped word passes the table's. -/
theorem rowOk_at (b : IVec S1600000 32)
    (hb : ∀ i, IntOp.andi (IntOp.cmpi .sge (b i) 4294966272#32) (IntOp.cmpi .slt (b i) 1024#32) = 1#1)
    (i : S1600000x1.Idx) : rowOk b i = 1#1 := by
  obtain ⟨e, z, rfl⟩ : ∃ (e : Fin 1600000) (z : Fin 1), i = ix2 e z := ⟨i 0, i 1, eq_ix2 i⟩
  show IntOp.andi
    (IntOp.cmpi .sge (startCol b (ix2 e z)) (broadcastInDim S1600000x1 ![] bcast_S_S1600000x1 (constantI S_ 32 0#32) (ix2 e z)))
    (IntOp.cmpi .sle (startCol b (ix2 e z)) (broadcastInDim S1600000x1 ![0, 1] bcast_S1x1_S1600000x1_0_1
      (broadcastInDim S1x1 ![1] bcast_S1_S1x1_1 (constantI S1 32 1023#32)) (ix2 e z))) = 1#1
  have h1023 : broadcastInDim S1600000x1 ![0, 1] bcast_S1x1_S1600000x1_0_1
      (broadcastInDim S1x1 ![1] bcast_S1_S1x1_1 (constantI S1 32 1023#32)) (ix2 e z) = 1023#32 := by
    rw [broadcastInDim_apply _ bcast_S1x1_S1600000x1_0_1 _ (ix2 e z) (ix2 (0 : Fin 1) (0 : Fin 1)) (fun a => match a with
        | ⟨0, _⟩ => by show 0 = if (1 : Nat) = 1 then 0 else _; rw [if_pos rfl]
        | ⟨1, _⟩ => by show 0 = if (1 : Nat) = 1 then 0 else _; rw [if_pos rfl]),
      broadcastInDim_apply _ bcast_S1_S1x1_1 _ (ix2 (0 : Fin 1) (0 : Fin 1)) (ix1 (0 : Fin 1)) (fun a => match a with
        | ⟨0, _⟩ => by show 0 = if (1 : Nat) = 1 then 0 else _; rw [if_pos rfl])]
    rfl
  rw [startCol_at, Predicate.bcast_scalar _ (by decide), h1023]
  exact wrapIdx_inRange _ (hb (ix1 e))

theorem inTable_at (b : IVec S1600000 32)
    (hb : ∀ i, IntOp.andi (IntOp.cmpi .sge (b i) 4294966272#32) (IntOp.cmpi .slt (b i) 1024#32) = 1#1)
    (e : Fin 1600000) : inTable b (ix1 e) = 1#1 := by
  unfold inTable
  rw [Host.reduce_eq_foldl]
  exact foldl_andi_one (rowOk b) _ (fun i _ => rowOk_at b hb i)

/-- Where every word passes its range test, the rows taken are the table's rows at the edges' graphs. -/
theorem takeRows_at (u : FVec F S1024x32 .f32) (b : IVec S1600000 32)
    (hb : ∀ i, IntOp.andi (IntOp.cmpi .sge (b i) 4294966272#32) (IntOp.cmpi .slt (b i) 1024#32) = 1#1)
    (e : Fin 1600000) (k : Fin 32) : takeRows u b (ix2 e k) = u (ix2 (graphOf b e) k) := by
  unfold takeRows
  rw [select_apply, broadcastInDim_apply _ bcast_S1600000_S1600000x32_0 (inTable b) (ix2 e k) (ix1 e) (fun a => match a with
      | ⟨0, _⟩ => by show e.val = if (1600000 : Nat) = 1 then 0 else e.val; rw [if_neg (by decide)]),
    inTable_at b hb e, select_one,
    GatherRows.gather_rows_apply (by decide) gather_S1024x32_S1600000x1_S1600000x32_1_0_n_n_0_1_132 rfl rfl rfl rfl rfl]
  refine congrArg (fun g : Fin 1024 => u (ix2 g k)) (Fin.ext ?_)
  show min (startCol b (ix2 e (0 : Fin 1))).toInt.toNat (1024 - 1) = min (wrapIdx (b (ix1 e))).toInt.toNat 1023
  rw [startCol_at]

/-! ## The arrays at region entry -/

variable (m : (ℓ : Loc nD τ sig) → Buf (Elt F) ℓ)

/-- Rows 0–63 of the first weight, as the region finds them. -/
theorem V_Wsrc (c : Dev nD) : (V m c main_v0 : S64x128.Idx → F .f32)
    = extractStridedSlice S64x128 ![0, 0] (m ((c : Thread nD τ).loc main_arg5)) slices_S192x128_S64x128_0_0 := by
  dsimp only [Gen.V]
  simp only [Gen.hostOps0, Gen.hostOps0_1, Gen.hostOps0_2, List.flatten_cons, List.flatten_nil, List.append_nil, List.cons_append, List.nil_append]
  after_results

theorem Wsrc_at (c : Dev nD) (k : Fin 64) (j : Fin 128) :
    (V m c main_v0 : S64x128.Idx → F .f32) (ix2 k j) = (m ((c : Thread nD τ).loc main_arg5) : S192x128.Idx → F .f32) (ix2 (rowSrc k) j) := by
  rw [V_Wsrc]
  exact extractStridedSlice_apply ![0, 0] _ slices_S192x128_S64x128_0_0 (ix2 k j) (ix2 (rowSrc k) j) (fun a => match a with
    | ⟨0, _⟩ => by show k.val = 0 + k.val; omega
    | ⟨1, _⟩ => by show j.val = 0 + j.val; omega)

/-- Rows 64–127 of the first weight, as the region finds them. -/
theorem V_Wdst (c : Dev nD) : (V m c main_v1 : S64x128.Idx → F .f32)
    = extractStridedSlice S64x128 ![64, 0] (m ((c : Thread nD τ).loc main_arg5)) slices_S192x128_S64x128_64_0 := by
  dsimp only [Gen.V]
  simp only [Gen.hostOps0, Gen.hostOps0_1, Gen.hostOps0_2, List.flatten_cons, List.flatten_nil, List.append_nil, List.cons_append, List.nil_append]
  after_results

theorem Wdst_at (c : Dev nD) (k : Fin 64) (j : Fin 128) :
    (V m c main_v1 : S64x128.Idx → F .f32) (ix2 k j) = (m ((c : Thread nD τ).loc main_arg5) : S192x128.Idx → F .f32) (ix2 (rowDst k) j) := by
  rw [V_Wdst]
  exact extractStridedSlice_apply ![64, 0] _ slices_S192x128_S64x128_64_0 (ix2 k j) (ix2 (rowDst k) j) (fun a => match a with
    | ⟨0, _⟩ => by show 64 + k.val = 64 + k.val; omega
    | ⟨1, _⟩ => by show j.val = 0 + j.val; omega)

/-- Rows 128–159 of the first weight, as the region finds them. -/
theorem V_Wedge (c : Dev nD) : (V m c main_v2 : S32x128.Idx → F .f32)
    = extractStridedSlice S32x128 ![128, 0] (m ((c : Thread nD τ).loc main_arg5)) slices_S192x128_S32x128_128_0 := by
  dsimp only [Gen.V]
  simp only [Gen.hostOps0, Gen.hostOps0_1, Gen.hostOps0_2, List.flatten_cons, List.flatten_nil, List.append_nil, List.cons_append, List.nil_append]
  after_results

theorem Wedge_at (c : Dev nD) (k : Fin 32) (j : Fin 128) :
    (V m c main_v2 : S32x128.Idx → F .f32) (ix2 k j) = (m ((c : Thread nD τ).loc main_arg5) : S192x128.Idx → F .f32) (ix2 (rowEdge k) j) := by
  rw [V_Wedge]
  exact extractStridedSlice_apply ![128, 0] _ slices_S192x128_S32x128_128_0 (ix2 k j) (ix2 (rowEdge k) j) (fun a => match a with
    | ⟨0, _⟩ => by show 128 + k.val = 128 + k.val; omega
    | ⟨1, _⟩ => by show j.val = 0 + j.val; omega)

/-- Rows 160–191 of the first weight, as the region finds them. -/
theorem V_Wglob (c : Dev nD) : (V m c main_v3 : S32x128.Idx → F .f32)
    = extractStridedSlice S32x128 ![160, 0] (m ((c : Thread nD τ).loc main_arg5)) slices_S192x128_S32x128_160_0 := by
  dsimp only [Gen.V]
  simp only [Gen.hostOps0, Gen.hostOps0_1, Gen.hostOps0_2, List.flatten_cons, List.flatten_nil, List.append_nil, List.cons_append, List.nil_append]
  after_results

theorem Wglob_at (c : Dev nD) (k : Fin 32) (j : Fin 128) :
    (V m c main_v3 : S32x128.Idx → F .f32) (ix2 k j) = (m ((c : Thread nD τ).loc main_arg5) : S192x128.Idx → F .f32) (ix2 (rowGlob k) j) := by
  rw [V_Wglob]
  exact extractStridedSlice_apply ![160, 0] _ slices_S192x128_S32x128_160_0 (ix2 k j) (ix2 (rowGlob k) j) (fun a => match a with
    | ⟨0, _⟩ => by show 160 + k.val = 160 + k.val; omega
    | ⟨1, _⟩ => by show j.val = 0 + j.val; omega)

/-- The first bias as a row. -/
theorem V_b1row (c : Dev nD) : (V m c main_v5 : S1x128.Idx → F .f32)
    = shapeCast S1x128 (m ((c : Thread nD τ).loc main_arg6)) shapeCasts_S128_S1x128 := by
  dsimp only [Gen.V]
  simp only [Gen.hostOps0, Gen.hostOps0_1, Gen.hostOps0_2, List.flatten_cons, List.flatten_nil, List.append_nil, List.cons_append, List.nil_append]
  after_results
  rfl

theorem b1row_at (c : Dev nD) (j : Fin 128) :
    (V m c main_v5 : S1x128.Idx → F .f32) (ix2 (0 : Fin 1) j) = (m ((c : Thread nD τ).loc main_arg6) : S128.Idx → F .f32) (ix1 j) := by
  rw [V_b1row]
  exact shapeCast_a_1a_apply _ shapeCasts_S128_S1x128 (0 : Fin 1) j

/-- The second bias as a row. -/
theorem V_b2row (c : Dev nD) : (V m c main_v6 : S1x32.Idx → F .f32)
    = shapeCast S1x32 (m ((c : Thread nD τ).loc main_arg8)) shapeCasts_S32_S1x32 := by
  dsimp only [Gen.V]
  simp only [Gen.hostOps0, Gen.hostOps0_1, Gen.hostOps0_2, List.flatten_cons, List.flatten_nil, List.append_nil, List.cons_append, List.nil_append]
  after_results
  rfl

theorem b2row_at (c : Dev nD) (q : Fin 32) :
    (V m c main_v6 : S1x32.Idx → F .f32) (ix2 (0 : Fin 1) q) = (m ((c : Thread nD τ).loc main_arg8) : S32.Idx → F .f32) (ix1 q) := by
  rw [V_b2row]
  exact shapeCast_a_1a_apply _ shapeCasts_S32_S1x32 (0 : Fin 1) q

/-! The take is a module-local function: its operations store and read their values through typed references, a
transport along an equation between a buffer's type and the value's that is the identity here. -/

/-- A value stored through a typed reference and read back through it is the value. -/
theorem ofBuf_toBuf {Val : EltTy → Type} {T : BufTy} (x : StableHlo.TRef sig T) (v : T.Contents Val) : x.ofBuf (x.toBuf v) = v := by
  obtain ⟨r, rfl, _, _⟩ := x
  rfl

/-- The graph words, read through their typed reference, are the graph words. -/
theorem ofBuf_words {Val : EltTy → Type} (p1 : main_arg4.ty = ⟨S1600000, .i32⟩) (p2 : main_arg4.space ≠ .host)
    (p3 : main_arg4.isScoped = false) (v : (⟨S1600000, .i32⟩ : BufTy).Contents Val) :
    (StableHlo.TRef.of (T := ⟨S1600000, .i32⟩) main_arg4 p1 p2 p3).ofBuf v = v := rfl

/-- The global-feature table, read through its typed reference, is the table. -/
theorem ofBuf_table {Val : EltTy → Type} (p1 : main_arg3.ty = ⟨S1024x32, .f32⟩) (p2 : main_arg3.space ≠ .host)
    (p3 : main_arg3.isScoped = false) (v : (⟨S1024x32, .f32⟩ : BufTy).Contents Val) :
    (StableHlo.TRef.of (T := ⟨S1024x32, .f32⟩) main_arg3 p1 p2 p3).ofBuf v = v := rfl

/-- The taken rows, stored through their typed reference, are the taken rows. -/
theorem toBuf_taken {Val : EltTy → Type} (p1 : main_v4.ty = ⟨S1600000x32, .f32⟩) (p2 : main_v4.space ≠ .host)
    (p3 : main_v4.isScoped = false) (v : (⟨S1600000x32, .f32⟩ : BufTy).Contents Val) :
    (StableHlo.TRef.of (T := ⟨S1600000x32, .f32⟩) main_v4 p1 p2 p3).toBuf v = v := rfl

set_option maxHeartbeats 4000000 in
/-- The rows of the global-feature table taken at the graph words. -/
theorem V_taken (c : Dev nD) : (V m c main_v4 : S1600000x32.Idx → F .f32)
    = takeRows (m ((c : Thread nD τ).loc main_arg3)) (m ((c : Thread nD τ).loc main_arg4)) := by
  dsimp only [Gen.V]
  simp only [Gen.hostOps0, Gen.hostOps0_1, Gen.hostOps0_2, List.flatten_cons, List.flatten_nil, List.append_nil, List.cons_append, List.nil_append]
  after_results
  simp only [ofBuf_toBuf, ofBuf_words, ofBuf_table, toBuf_taken]
  rfl

end Cert.KernelIdeal.Entry

end
-- ==== Proof.KernelValue.lean ====
/-
  The kernel's result array is the edge model's value.

  The grid has 200 points; point `t` works on edges 8000·t … 8000·t + 7999. Its four feature blocks are those rows of
  the source, target, edge and taken-global arrays, the seven other windows are whole arrays (block index 0), and what
  it writes back is rows 8000·t … of the result. Entry (r, q) of the written block is the body's value of the blocks,
  which is the specification's value at edge 8000·t + r once every block entry is read off its array; the 200 row
  blocks tile the result.
-/
import proofs.«429387_j23562190586356_1_alg».proof.Proof.Gen.KernelIdeal.Value
import proofs.«429387_j23562190586356_1_alg».proof.Proof.KernelBody
import proofs.«429387_j23562190586356_1_alg».proof.Proof.KernelEntry
import proofs.«429387_j23562190586356_1_alg».proof.Proof.Spec
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.EdgeModel

/-! ## Where each window's block sits, decided over the 200 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem hz : (![0, 0] : Fin 2 → Nat) = fun _ => 0 := funext fun a => by fin_cases a <;> rfl

/-- Row `r` of point `t`'s blocks is edge 8000·t + r. -/
def edgeOf (t : Fin cfg0.N) (r : Fin 8000) : Fin 1600000 :=
  ⟨8000 * t.val + r.val, by
    have ht : t.val < 200 := Nat.lt_of_lt_of_eq t.isLt (show cfg0.N = 200 from N_0)
    omega⟩

section Blocks

variable {F : FTy → Type} [FloatOps F]
variable (m : (ℓ : Loc nD τ sig) → Buf (Elt F) ℓ)

/-! ## A window's block read through its rectangle: rows 8000·t … for the five that move, the whole array for the rest -/

/-- Window 0's block at point `t` is rows 8000·t … of its array. -/
theorem readSrc (A : S1600000x64.Idx → F .f32) (t : Fin cfg0.N) (r : Fin 8000) (k : Fin 64) :
    ((cfg0.win 0).blk t).view.read (Elt F) A (ix2 r k) = A (ix2 (edgeOf t r) k) := by
  obtain ⟨h0, h1⟩ := idx0 t
  rw [View.read_apply]
  show A _ = A _
  congr 1
  funext a
  apply Fin.ext
  match a with
  | ⟨0, _⟩ => show win0_0.index t (0 : Fin 2) * 8000 + 1 * r.val = 8000 * t.val + r.val; rw [h0]; omega
  | ⟨1, _⟩ => show win0_0.index t (1 : Fin 2) * 64 + 1 * k.val = k.val; rw [h1]; omega

/-- Window 1's block at point `t` is rows 8000·t … of its array. -/
theorem readDst (A : S1600000x64.Idx → F .f32) (t : Fin cfg0.N) (r : Fin 8000) (k : Fin 64) :
    ((cfg0.win 1).blk t).view.read (Elt F) A (ix2 r k) = A (ix2 (edgeOf t r) k) := by
  obtain ⟨h0, h1⟩ := idx1 t
  rw [View.read_apply]
  show A _ = A _
  congr 1
  funext a
  apply Fin.ext
  match a with
  | ⟨0, _⟩ => show win0_1.index t (0 : Fin 2) * 8000 + 1 * r.val = 8000 * t.val + r.val; rw [h0]; omega
  | ⟨1, _⟩ => show win0_1.index t (1 : Fin 2) * 64 + 1 * k.val = k.val; rw [h1]; omega

/-- Window 2's block at point `t` is rows 8000·t … of its array. -/
theorem readEdge (A : S1600000x32.Idx → F .f32) (t : Fin cfg0.N) (r : Fin 8000) (k : Fin 32) :
    ((cfg0.win 2).blk t).view.read (Elt F) A (ix2 r k) = A (ix2 (edgeOf t r) k) := by
  obtain ⟨h0, h1⟩ := idx2 t
  rw [View.read_apply]
  show A _ = A _
  congr 1
  funext a
  apply Fin.ext
  match a with
  | ⟨0, _⟩ => show win0_2.index t (0 : Fin 2) * 8000 + 1 * r.val = 8000 * t.val + r.val; rw [h0]; omega
  | ⟨1, _⟩ => show win0_2.index t (1 : Fin 2) * 32 + 1 * k.val = k.val; rw [h1]; omega

/-- Window 3's block at point `t` is rows 8000·t … of its array. -/
theorem readGlob (A : S1600000x32.Idx → F .f32) (t : Fin cfg0.N) (r : Fin 8000) (k : Fin 32) :
    ((cfg0.win 3).blk t).view.read (Elt F) A (ix2 r k) = A (ix2 (edgeOf t r) k) := by
  obtain ⟨h0, h1⟩ := idx3 t
  rw [View.read_apply]
  show A _ = A _
  congr 1
  funext a
  apply Fin.ext
  match a with
  | ⟨0, _⟩ => show win0_3.index t (0 : Fin 2) * 8000 + 1 * r.val = 8000 * t.val + r.val; rw [h0]; omega
  | ⟨1, _⟩ => show win0_3.index t (1 : Fin 2) * 32 + 1 * k.val = k.val; rw [h1]; omega

/-- Window 11's block at point `t` is rows 8000·t … of its array. -/
theorem readOut (A : S1600000x32.Idx → F .f32) (t : Fin cfg0.N) (r : Fin 8000) (k : Fin 32) :
    ((cfg0.win 11).blk t).view.read (Elt F) A (ix2 r k) = A (ix2 (edgeOf t r) k) := by
  obtain ⟨h0, h1⟩ := idx11 t
  rw [View.read_apply]
  show A _ = A _
  congr 1
  funext a
  apply Fin.ext
  match a with
  | ⟨0, _⟩ => show win0_11.index t (0 : Fin 2) * 8000 + 1 * r.val = 8000 * t.val + r.val; rw [h0]; omega
  | ⟨1, _⟩ => show win0_11.index t (1 : Fin 2) * 32 + 1 * k.val = k.val; rw [h1]; omega

/-- Window 4's block at every point is its whole array. -/
theorem readWsrc (X : S64x128.Idx → F .f32) (t : Fin cfg0.N) (a : Fin 64) (b : Fin 128) :
    ((cfg0.win 4).blk t).view.read (Elt F) X (ix2 a b) = X (ix2 a b) := by
  obtain ⟨h0, h1⟩ := idx4 t
  rw [View.read_apply]
  show X _ = X _
  congr 1
  funext x
  apply Fin.ext
  match x with
  | ⟨0, _⟩ => show win0_4.index t (0 : Fin 2) * 64 + 1 * a.val = a.val; rw [h0]; omega
  | ⟨1, _⟩ => show win0_4.index t (1 : Fin 2) * 128 + 1 * b.val = b.val; rw [h1]; omega

/-- Window 5's block at every point is its whole array. -/
theorem readWdst (X : S64x128.Idx → F .f32) (t : Fin cfg0.N) (a : Fin 64) (b : Fin 128) :
    ((cfg0.win 5).blk t).view.read (Elt F) X (ix2 a b) = X (ix2 a b) := by
  obtain ⟨h0, h1⟩ := idx5 t
  rw [View.read_apply]
  show X _ = X _
  congr 1
  funext x
  apply Fin.ext
  match x with
  | ⟨0, _⟩ => show win0_5.index t (0 : Fin 2) * 64 + 1 * a.val = a.val; rw [h0]; omega
  | ⟨1, _⟩ => show win0_5.index t (1 : Fin 2) * 128 + 1 * b.val = b.val; rw [h1]; omega

/-- Window 6's block at every point is its whole array. -/
theorem readWedge (X : S32x128.Idx → F .f32) (t : Fin cfg0.N) (a : Fin 32) (b : Fin 128) :
    ((cfg0.win 6).blk t).view.read (Elt F) X (ix2 a b) = X (ix2 a b) := by
  obtain ⟨h0, h1⟩ := idx6 t
  rw [View.read_apply]
  show X _ = X _
  congr 1
  funext x
  apply Fin.ext
  match x with
  | ⟨0, _⟩ => show win0_6.index t (0 : Fin 2) * 32 + 1 * a.val = a.val; rw [h0]; omega
  | ⟨1, _⟩ => show win0_6.index t (1 : Fin 2) * 128 + 1 * b.val = b.val; rw [h1]; omega

/-- Window 7's block at every point is its whole array. -/
theorem readWglob (X : S32x128.Idx → F .f32) (t : Fin cfg0.N) (a : Fin 32) (b : Fin 128) :
    ((cfg0.win 7).blk t).view.read (Elt F) X (ix2 a b) = X (ix2 a b) := by
  obtain ⟨h0, h1⟩ := idx7 t
  rw [View.read_apply]
  show X _ = X _
  congr 1
  funext x
  apply Fin.ext
  match x with
  | ⟨0, _⟩ => show win0_7.index t (0 : Fin 2) * 32 + 1 * a.val = a.val; rw [h0]; omega
  | ⟨1, _⟩ => show win0_7.index t (1 : Fin 2) * 128 + 1 * b.val = b.val; rw [h1]; omega

/-- Window 8's block at every point is its whole array. -/
theorem readB1 (X : S1x128.Idx → F .f32) (t : Fin cfg0.N) (a : Fin 1) (b : Fin 128) :
    ((cfg0.win 8).blk t).view.read (Elt F) X (ix2 a b) = X (ix2 a b) := by
  obtain ⟨h0, h1⟩ := idx8 t
  rw [View.read_apply]
  show X _ = X _
  congr 1
  funext x
  apply Fin.ext
  match x with
  | ⟨0, _⟩ => show win0_8.index t (0 : Fin 2) * 1 + 1 * a.val = a.val; rw [h0]; omega
  | ⟨1, _⟩ => show win0_8.index t (1 : Fin 2) * 128 + 1 * b.val = b.val; rw [h1]; omega

/-- Window 9's block at every point is its whole array. -/
theorem readW2 (X : S128x32.Idx → F .f32) (t : Fin cfg0.N) (a : Fin 128) (b : Fin 32) :
    ((cfg0.win 9).blk t).view.read (Elt F) X (ix2 a b) = X (ix2 a b) := by
  obtain ⟨h0, h1⟩ := idx9 t
  rw [View.read_apply]
  show X _ = X _
  congr 1
  funext x
  apply Fin.ext
  match x with
  | ⟨0, _⟩ => show win0_9.index t (0 : Fin 2) * 128 + 1 * a.val = a.val; rw [h0]; omega
  | ⟨1, _⟩ => show win0_9.index t (1 : Fin 2) * 32 + 1 * b.val = b.val; rw [h1]; omega

/-- Window 10's block at every point is its whole array. -/
theorem readB2 (X : S1x32.Idx → F .f32) (t : Fin cfg0.N) (a : Fin 1) (b : Fin 32) :
    ((cfg0.win 10).blk t).view.read (Elt F) X (ix2 a b) = X (ix2 a b) := by
  obtain ⟨h0, h1⟩ := idx10 t
  rw [View.read_apply]
  show X _ = X _
  congr 1
  funext x
  apply Fin.ext
  match x with
  | ⟨0, _⟩ => show win0_10.index t (0 : Fin 2) * 1 + 1 * a.val = a.val; rw [h0]; omega
  | ⟨1, _⟩ => show win0_10.index t (1 : Fin 2) * 32 + 1 * b.val = b.val; rw [h1]; omega

/-! ## Each input block at a point, entry by entry, as the argument arrays' entries -/

/-- The source features of point `t`'s edges. -/
abbrev blkSrc (c : Dev nD) (t : Fin cfg0.N) : Vec F S8000x64 .f32 := iblk m c 0 t
/-- The target features of point `t`'s edges. -/
abbrev blkDst (c : Dev nD) (t : Fin cfg0.N) : Vec F S8000x64 .f32 := iblk m c 1 t
/-- The edge features of point `t`'s edges. -/
abbrev blkEdge (c : Dev nD) (t : Fin cfg0.N) : Vec F S8000x32 .f32 := iblk m c 2 t
/-- The taken global features of point `t`'s edges. -/
abbrev blkGlob (c : Dev nD) (t : Fin cfg0.N) : Vec F S8000x32 .f32 := iblk m c 3 t
/-- The source rows of the first weight. -/
abbrev blkWsrc (c : Dev nD) (t : Fin cfg0.N) : Vec F S64x128 .f32 := iblk m c 4 t
/-- The target rows of the first weight. -/
abbrev blkWdst (c : Dev nD) (t : Fin cfg0.N) : Vec F S64x128 .f32 := iblk m c 5 t
/-- The edge rows of the first weight. -/
abbrev blkWedge (c : Dev nD) (t : Fin cfg0.N) : Vec F S32x128 .f32 := iblk m c 6 t
/-- The global rows of the first weight. -/
abbrev blkWglob (c : Dev nD) (t : Fin cfg0.N) : Vec F S32x128 .f32 := iblk m c 7 t
/-- The first bias row. -/
abbrev blkB1 (c : Dev nD) (t : Fin cfg0.N) : Vec F S1x128 .f32 := iblk m c 8 t
/-- The second weight. -/
abbrev blkW2 (c : Dev nD) (t : Fin cfg0.N) : Vec F S128x32 .f32 := iblk m c 9 t
/-- The second bias row. -/
abbrev blkB2 (c : Dev nD) (t : Fin cfg0.N) : Vec F S1x32 .f32 := iblk m c 10 t

theorem blkSrc_at (c : Dev nD) (t : Fin cfg0.N) (r : Fin 8000) (k : Fin 64) :
    blkSrc m c t (ix2 r k) = ((m ((c : Thread nD τ).loc main_arg0)) : S1600000x64.Idx → F .f32) (ix2 (edgeOf t r) k) :=
  (readSrc (V m c main_arg0) t r k).trans (congrFun (V_main_arg0 m c) _)

theorem blkDst_at (c : Dev nD) (t : Fin cfg0.N) (r : Fin 8000) (k : Fin 64) :
    blkDst m c t (ix2 r k) = ((m ((c : Thread nD τ).loc main_arg1)) : S1600000x64.Idx → F .f32) (ix2 (edgeOf t r) k) :=
  (readDst (V m c main_arg1) t r k).trans (congrFun (V_main_arg1 m c) _)

theorem blkEdge_at (c : Dev nD) (t : Fin cfg0.N) (r : Fin 8000) (k : Fin 32) :
    blkEdge m c t (ix2 r k) = ((m ((c : Thread nD τ).loc main_arg2)) : S1600000x32.Idx → F .f32) (ix2 (edgeOf t r) k) :=
  (readEdge (V m c main_arg2) t r k).trans (congrFun (V_main_arg2 m c) _)

/-- Where every graph word passes its range test, the taken block holds the table's rows at the edges' graphs. -/
theorem blkGlob_at (c : Dev nD)
    (hb : ∀ i : S1600000.Idx, IntOp.andi (IntOp.cmpi .sge ((m ((c : Thread nD τ).loc main_arg4)) i) 4294966272#32) (IntOp.cmpi .slt ((m ((c : Thread nD τ).loc main_arg4)) i) 1024#32) = 1#1)
    (t : Fin cfg0.N) (r : Fin 8000) (k : Fin 32) :
    blkGlob m c t (ix2 r k)
      = ((m ((c : Thread nD τ).loc main_arg3)) : S1024x32.Idx → F .f32) (ix2 (graphOf (m ((c : Thread nD τ).loc main_arg4)) (edgeOf t r)) k) :=
  (readGlob (V m c main_v4) t r k).trans
    ((congrFun (Entry.V_taken m c) _).trans (Entry.takeRows_at _ _ hb (edgeOf t r) k))

theorem blkWsrc_at (c : Dev nD) (t : Fin cfg0.N) (k : Fin 64) (j : Fin 128) :
    blkWsrc m c t (ix2 k j) = ((m ((c : Thread nD τ).loc main_arg5)) : S192x128.Idx → F .f32) (ix2 (rowSrc k) j) :=
  (readWsrc (V m c main_v0) t k j).trans (Entry.Wsrc_at m c k j)

theorem blkWdst_at (c : Dev nD) (t : Fin cfg0.N) (k : Fin 64) (j : Fin 128) :
    blkWdst m c t (ix2 k j) = ((m ((c : Thread nD τ).loc main_arg5)) : S192x128.Idx → F .f32) (ix2 (rowDst k) j) :=
  (readWdst (V m c main_v1) t k j).trans (Entry.Wdst_at m c k j)

theorem blkWedge_at (c : Dev nD) (t : Fin cfg0.N) (k : Fin 32) (j : Fin 128) :
    blkWedge m c t (ix2 k j) = ((m ((c : Thread nD τ).loc main_arg5)) : S192x128.Idx → F .f32) (ix2 (rowEdge k) j) :=
  (readWedge (V m c main_v2) t k j).trans (Entry.Wedge_at m c k j)

theorem blkWglob_at (c : Dev nD) (t : Fin cfg0.N) (k : Fin 32) (j : Fin 128) :
    blkWglob m c t (ix2 k j) = ((m ((c : Thread nD τ).loc main_arg5)) : S192x128.Idx → F .f32) (ix2 (rowGlob k) j) :=
  (readWglob (V m c main_v3) t k j).trans (Entry.Wglob_at m c k j)

theorem blkB1_at (c : Dev nD) (t : Fin cfg0.N) (j : Fin 128) :
    blkB1 m c t (ix2 (0 : Fin 1) j) = ((m ((c : Thread nD τ).loc main_arg6)) : S128.Idx → F .f32) (ix1 j) :=
  (readB1 (V m c main_v5) t 0 j).trans (Entry.b1row_at m c j)

theorem blkW2_at (c : Dev nD) (t : Fin cfg0.N) (j : Fin 128) (q : Fin 32) :
    blkW2 m c t (ix2 j q) = ((m ((c : Thread nD τ).loc main_arg7)) : S128x32.Idx → F .f32) (ix2 j q) :=
  (readW2 (V m c main_arg7) t j q).trans (congrFun (V_main_arg7 m c) _)

theorem blkB2_at (c : Dev nD) (t : Fin cfg0.N) (q : Fin 32) :
    blkB2 m c t (ix2 (0 : Fin 1) q) = ((m ((c : Thread nD τ).loc main_arg8)) : S32.Idx → F .f32) (ix1 q) :=
  (readB2 (V m c main_v6) t 0 q).trans (Entry.b2row_at m c q)

end Blocks

/-! ## What a point writes back, and the whole array -/

variable (m : (ℓ : Loc nD τ sig) → Buf (Elt Ideal) ℓ) (ρ : Dev nD → PrngReg)

/-- The edge model's value of core `c`'s argument arrays. -/
abbrev resultOf (c : Dev nD) : S1600000x32.Idx → EReal :=
  Cert.EdgeModel.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Every graph word of core `c` passes the range test. -/
abbrev WordsInRange (c : Dev nD) : Prop :=
  ∀ i : S1600000.Idx, IntOp.andi (IntOp.cmpi .sge ((m ((c : Thread nD τ).loc main_arg4)) i) 4294966272#32) (IntOp.cmpi .slt ((m ((c : Thread nD τ).loc main_arg4)) i) 1024#32) = 1#1

/-- Point `t` writes back rows 8000·t … of the edge model's value. -/
theorem flushed_eq (c : Dev nD) (hb : WordsInRange m c) (t : Fin cfg0.N) :
    (dats m 0 c).flushed 11 t = ((cfg0.win 11).blk t).view.read (Elt Ideal) (resultOf m c) := by
  rw [flushed11]
  unfold out0_11
  rw [View.canon_unit_zero hz]
  simp only [View.ld_unit_zero (S := S8000x64) hz, View.ld_unit_zero (S := S8000x32) hz, View.ld_unit_zero (S := S64x128) hz,
    View.ld_unit_zero (S := S32x128) hz, View.ld_unit_zero (S := S1x128) hz, View.ld_unit_zero (S := S128x32) hz,
    View.ld_unit_zero (S := S1x32) hz]
  funext y
  obtain ⟨r, q, rfl⟩ : ∃ (r : Fin 8000) (q : Fin 32), y = ix2 r q := ⟨y 0, y 1, eq_ix2 y⟩
  have hr : ((cfg0.win 11).blk t).view.read (Elt Ideal) (resultOf m c) (ix2 r q) = resultOf m c (ix2 (edgeOf t r) q) :=
    readOut (F := Ideal) (resultOf m c) t r q
  refine Eq.trans ?_ hr.symm
  show k0_pay1 (F := Ideal) (k0_pay2 (F := Ideal) (blkSrc m c t) (blkDst m c t) (blkEdge m c t) (blkGlob m c t) (blkWsrc m c t)
      (blkWdst m c t) (blkWedge m c t) (blkWglob m c t) (blkB1 m c t)) (blkW2 m c t) (blkB2 m c t) (ix2 r q)
    = resultOf m c (ix2 (edgeOf t r) q)
  rw [Body.out_at]
  show _ = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (edgeOf t r) q
  unfold Cert.EdgeModel.outAt Cert.EdgeModel.hidden
  simp only [Body.hidden_at, blkSrc_at, blkDst_at, blkEdge_at, blkGlob_at m c hb, blkWsrc_at, blkWdst_at, blkWedge_at, blkWglob_at,
    blkB1_at, blkW2_at, blkB2_at]

/-- An index of the result is in point `t`'s block iff each coordinate is in the block's range on its axis. -/
theorem mem_blk (t : Fin cfg0.N) (i : S1600000x32.Idx) :
    i ∈ ((cfg0.win 11).blk t).view.set ↔ ∀ a : Fin 2, win0_11.index t a * S8000x32.size a ≤ (i a).val
      ∧ (i a).val < win0_11.index t a * S8000x32.size a + S8000x32.size a := by
  show i ∈ ((View.whole main_v7).slice (win0_11.rect t)).set ↔ _
  rw [View.set_slice_whole, Rect.mem_set_unit]
  exact Iff.rfl

/-- The 200 row blocks tile the result: edge `e` is in the block of point `e / 8000`. -/
theorem cover (i : S1600000x32.Idx) :
    ∃ t : Fin cfg0.N, (cfg0.win 11).flush t = true ∧ i ∈ ((cfg0.win 11).blk t).view.set := by
  have hi0 : (i 0).val < 1600000 := (i 0).isLt
  have hi1 : (i 1).val < 32 := (i 1).isLt
  have hN : cfg0.N = 200 := N_0
  obtain ⟨h0, h1⟩ := idx11 ⟨(i 0).val / 8000, by rw [hN]; omega⟩
  refine ⟨⟨(i 0).val / 8000, by rw [hN]; omega⟩, flush0_11 _, ?_⟩
  rw [mem_blk]
  intro a
  match a with
  | ⟨0, _⟩ =>
    show win0_11.index _ (0 : Fin 2) * 8000 ≤ (i 0).val ∧ (i 0).val < win0_11.index _ (0 : Fin 2) * 8000 + 8000
    rw [h0]
    show (i 0).val / 8000 * 8000 ≤ (i 0).val ∧ (i 0).val < (i 0).val / 8000 * 8000 + 8000
    omega
  | ⟨1, _⟩ =>
    show win0_11.index _ (1 : Fin 2) * 32 ≤ (i 1).val ∧ (i 1).val < win0_11.index _ (1 : Fin 2) * 32 + 32
    rw [h1]; omega

/-- After the run the result array holds the edge model's value. -/
theorem final (c : Dev nD) (hb : WordsInRange m c) : (dats m 0 c).arrAt 11 cfg0.N = resultOf m c :=
  (dats m 0 c).arrAt_eq_of_cover 11 (resultOf m c) (fun t _ => flushed_eq m c hb t) cover

/-- The run, read: the result at the edge model's value of the arguments, the arguments unchanged. -/
theorem run (hb : ∀ c : Dev nD, WordsInRange m c) :
    θ_run defs (onTc (τ := τ) (main (F := Ideal))) ⟨m, fun _ => 0, ρ⟩ fun r => ∀ c : Dev nD,
      r.2.mem ((c : Thread nD τ).loc main_v7) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hb c)), (h c).2⟩) (run_blocks m ρ)

end Cert.KernelIdeal.Whole

end
-- ==== Proof.RefValue.lean ====
/-
  The reference's result, one entry at a time, is the edge model's value.

  The reference multiplies every graph's global features with rows 160–191 of the first weight once (1024 rows) and
  then gathers, for each edge, the row of that product at the edge's graph. Read at an entry, the gathered row of the
  product is the product with the gathered row: the same sum over the 32 global features. Everything else is the
  specification's own text: four sums added left to right, the bias, the cut at zero, the second product and its bias.
-/
import proofs.«429387_j23562190586356_1_alg».proof.Proof.Gen.ReferenceIdeal.Read
import proofs.«429387_j23562190586356_1_alg».proof.Proof.LibGatherRows
import proofs.«429387_j23562190586356_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeModel

variable (x0 x1 : FVec Ideal S1600000x64 .f32) (x2 : FVec Ideal S1600000x32 .f32) (x3 : FVec Ideal S1024x32 .f32)
  (x4 : IVec S1600000 32) (x5 : FVec Ideal S192x128 .f32) (x6 : FVec Ideal S128 .f32) (x7 : FVec Ideal S128x32 .f32)
  (x8 : FVec Ideal S32 .f32)

/-- The column of start indices holds, for edge `e`, the edge's graph word read as numpy reads an index. -/
theorem startIdx_at (e : Fin 1600000) : val_main_v15 (F := Ideal) x4 (ix2 e (0 : Fin 1)) = wrapIdx (x4 (ix1 e)) := by
  rw [val_main_v15_apply]
  have e1 : idx_main_v15 (ix2 e (0 : Fin 1)) = ix1 e := funext fun a => Fin.ext (by match a with | ⟨0, _⟩ => rfl)
  rw [e1, val_main_v14_apply, val_main_v11_apply, val_main_v13_apply, val_main_v10_apply, val_main_v12_apply]
  rfl

/-- The source product at (e, j). -/
theorem src_at (e : Fin 1600000) (j : Fin 128) :
    val_main_v4 (F := Ideal) x0 x5 (ix2 e j) = ∑ k : Fin 64, x0 (ix2 e k) * x5 (ix2 (rowSrc k) j) := by
  rw [val_main_v4_apply]
  refine Finset.sum_congr rfl fun k _ => ?_
  rw [val_main_v0_apply]
  have el : lidx_main_v4 (ix2 e j) k = ix2 e k := funext fun a => Fin.ext (by match a with | ⟨0, _⟩ => rfl | ⟨1, _⟩ => rfl)
  have er : idx_main_v0 (ridx_main_v4 (ix2 e j) k) = ix2 (rowSrc k) j :=
    funext fun a => Fin.ext (by match a with | ⟨0, _⟩ => rfl | ⟨1, _⟩ => rfl)
  rw [el, er]

/-- The target product at (e, j). -/
theorem dst_at (e : Fin 1600000) (j : Fin 128) :
    val_main_v5 (F := Ideal) x1 x5 (ix2 e j) = ∑ k : Fin 64, x1 (ix2 e k) * x5 (ix2 (rowDst k) j) := by
  rw [val_main_v5_apply]
  refine Finset.sum_congr rfl fun k _ => ?_
  rw [val_main_v1_apply]
  have el : lidx_main_v5 (ix2 e j) k = ix2 e k := funext fun a => Fin.ext (by match a with | ⟨0, _⟩ => rfl | ⟨1, _⟩ => rfl)
  have er : idx_main_v1 (ridx_main_v5 (ix2 e j) k) = ix2 (rowDst k) j :=
    funext fun a => Fin.ext (by match a with | ⟨0, _⟩ => rfl | ⟨1, _⟩ => rfl)
  rw [el, er]

/-- The edge-feature product at (e, j). -/
theorem edge_at (e : Fin 1600000) (j : Fin 128) :
    val_main_v7 (F := Ideal) x2 x5 (ix2 e j) = ∑ k : Fin 32, x2 (ix2 e k) * x5 (ix2 (rowEdge k) j) := by
  rw [val_main_v7_apply]
  refine Finset.sum_congr rfl fun k _ => ?_
  rw [val_main_v2_apply]
  have el : lidx_main_v7 (ix2 e j) k = ix2 e k := funext fun a => Fin.ext (by match a with | ⟨0, _⟩ => rfl | ⟨1, _⟩ => rfl)
  have er : idx_main_v2 (ridx_main_v7 (ix2 e j) k) = ix2 (rowEdge k) j :=
    funext fun a => Fin.ext (by match a with | ⟨0, _⟩ => rfl | ⟨1, _⟩ => rfl)
  rw [el, er]

/-- The per-graph product at (g, j). -/
theorem glob_at (g : Fin 1024) (j : Fin 128) :
    val_main_v9 (F := Ideal) x3 x5 (ix2 g j) = ∑ k : Fin 32, x3 (ix2 g k) * x5 (ix2 (rowGlob k) j) := by
  rw [val_main_v9_apply]
  refine Finset.sum_congr rfl fun k _ => ?_
  rw [val_main_v3_apply]
  have el : lidx_main_v9 (ix2 g j) k = ix2 g k := funext fun a => Fin.ext (by match a with | ⟨0, _⟩ => rfl | ⟨1, _⟩ => rfl)
  have er : idx_main_v3 (ridx_main_v9 (ix2 g j) k) = ix2 (rowGlob k) j :=
    funext fun a => Fin.ext (by match a with | ⟨0, _⟩ => rfl | ⟨1, _⟩ => rfl)
  rw [el, er]

/-- The gathered rows at (e, j): the per-graph product's row at the edge's graph. -/
theorem gathered_at (e : Fin 1600000) (j : Fin 128) :
    val_main_v16 (F := Ideal) x3 x4 x5 (ix2 e j) = ∑ k : Fin 32, x3 (ix2 (graphOf x4 e) k) * x5 (ix2 (rowGlob k) j) := by
  unfold val_main_v16
  rw [GatherRows.gather_rows_apply (by decide) gather_S1024x128_S1600000x1_S1600000x128_1_0_n_n_0_1_1128 rfl rfl rfl rfl rfl]
  refine (congrArg (fun g : Fin 1024 => val_main_v9 (F := Ideal) x3 x5 (ix2 g j)) (Fin.ext ?_)).trans
    (glob_at x3 x5 (graphOf x4 e) j)
  show min (val_main_v15 (F := Ideal) x4 (ix2 e (0 : Fin 1))).toInt.toNat (1024 - 1)
    = min (wrapIdx (x4 (ix1 e))).toInt.toNat 1023
  rw [startIdx_at]

/-- The hidden layer at (e, j). -/
theorem hidden_at (e : Fin 1600000) (j : Fin 128) :
    val_main_v21 (F := Ideal) x0 x1 x2 x3 x4 x5 x6 (ix2 e j) = hidden x0 x1 x2 x3 x4 x5 x6 e j := by
  rw [val_main_v21_apply, val_main_v20_apply, val_main_v17_apply, val_main_v8_apply, val_main_v6_apply,
    src_at, dst_at, edge_at, gathered_at, val_main_v19_apply, val_main_v18_apply, val_main_call0_v0_apply,
    val_main_call0_cst_apply]
  have eb : idx_main_v18 (idx_main_v19 (ix2 e j)) = ix1 j := funext fun a => Fin.ext (by match a with | ⟨0, _⟩ => rfl)
  rw [eb]
  show max _ (Ideal.ofBits .f32 0x00000000#32) = _
  rw [Ideal.ofBits_zero_f32]
  rfl

/-- The reference's result array is the edge model's. -/
theorem result_eq :
    val_main_v25 (F := Ideal) x0 x1 x2 x3 x4 x5 x6 x7 x8 = Cert.EdgeModel.out x0 x1 x2 x3 x4 x5 x6 x7 x8 := by
  funext i
  obtain ⟨e, q, rfl⟩ : ∃ (e : Fin 1600000) (q : Fin 32), i = ix2 e q := ⟨i 0, i 1, eq_ix2 i⟩
  show _ = outAt x0 x1 x2 x3 x4 x5 x6 x7 x8 e q
  unfold outAt
  rw [val_main_v25_apply, val_main_v22_apply, val_main_v24_apply, val_main_v23_apply]
  have eb : idx_main_v23 (idx_main_v24 (ix2 e q)) = ix1 q := funext fun a => Fin.ext (by match a with | ⟨0, _⟩ => rfl)
  rw [eb]
  refine congrArg (· + x8 (ix1 q)) (Finset.sum_congr rfl fun j _ => ?_)
  have el : lidx_main_v22 (ix2 e q) j = ix2 e j := funext fun a => Fin.ext (by match a with | ⟨0, _⟩ => rfl | ⟨1, _⟩ => rfl)
  have er : ridx_main_v22 (ix2 e q) j = ix2 j q := funext fun a => Fin.ext (by match a with | ⟨0, _⟩ => rfl | ⟨1, _⟩ => rfl)
  rw [el, er, hidden_at]

end Cert.ReferenceIdeal.RefValue

end
-- ==== Proof.PreRange.lean ====
/-
  What the precondition says of the graph words.

  The precondition is a conjunction whose last conjunct is `jnp.all` of, edge by edge, "the word is at least −1024
  and below 1024" (two signed compares against broadcast constants, joined by `and`). Where the precondition holds,
  that test holds at every edge.
-/
import proofs.«429387_j23562190586356_1_alg».proof.Pre_finite_inputs
import Idealize.ShloMosaic.Lib.ReduceAll
import Idealize.ShloMosaic.Lib.StableHlo.Predicate
import Idealize.ShloMosaic.Lib.ValueIdx

noncomputable section

namespace Cert.Pre_finite_inputs.Range

open Cert.Pre_finite_inputs Idealize.ShloMosaic Idealize.ShloMosaic.ValueIdx

variable {F : FTy → Type} [FloatOps F] [hF : Cert.Pre_finite_inputs.Facts]

/-- Under the precondition every graph word passes the range test: at least −1024 and below 1024. -/
theorem word_in_range (x0 x1 : FVec F S1600000x64 .f32) (x2 : FVec F S1600000x32 .f32) (x3 : FVec F S1024x32 .f32)
    (x4 : IVec S1600000 32) (x5 : FVec F S192x128 .f32) (x6 : FVec F S128 .f32) (x7 : FVec F S128x32 .f32)
    (x8 : FVec F S32 .f32) (h : fn (F := F) x0 x1 x2 x3 x4 x5 x6 x7 x8 = fun _ => 1#1) (e : S1600000.Idx) :
    IntOp.andi (IntOp.cmpi .sge (x4 e) 4294966272#32) (IntOp.cmpi .slt (x4 e) 1024#32) = 1#1 := by
  have h0 := congrFun h ix0
  dsimp only [fn, fn_part1, fn_part2] at h0
  have h1 := (IntOp.andi_eq_one.1 h0).2
  haveI : Subsingleton S_.Idx := ⟨fun a b => funext fun d => d.elim0⟩
  have h2 := Host.reduce_andi_all _ _ _ _ ix0 h1 e
  have h3 : IntOp.andi
      (IntOp.cmpi .sge (x4 e) (broadcastInDim S1600000 ![] hF.bcast_S_S1600000 (constantI S_ 32 4294966272#32) e))
      (IntOp.cmpi .slt (x4 e) (broadcastInDim S1600000 ![] hF.bcast_S_S1600000 (constantI S_ 32 1024#32) e)) = 1#1 := h2
  rw [StableHlo.Predicate.bcast_scalar _ (by decide), StableHlo.Predicate.bcast_scalar _ (by decide)] at h3
  exact h3

end Cert.Pre_finite_inputs.Range

end
-- ==== Proof.lean ====
/-
  An edge model of a graph network: for each of 1,600,000 edges the source node's, the target node's, the edge's and the
  edge's graph's features go through a two-layer perceptron (192 → 128, cut below at zero, → 32). The kernel takes the
  graph's 32 global features with `jnp.take` at the edge's graph word, and multiplies the four feature blocks with the
  four row blocks of the first weight inside one region of 200 grid points of 8000 edges; the reference multiplies the
  1024 graphs' features with their row block once and gathers the product's rows by indexing.

  Over the extended reals the two agree entry by entry wherever every graph word lies in [−1024, 1024): both read the
  word as numpy reads an index (a negative one counts from the end), and a row of a product is the product of the row,
  so both compute the sums of `Proof/Spec.lean` in the same association; no law of the extended reals is used beyond
  that, and the finiteness of the float inputs is not used. Outside that range the two differ (the take fills a row with
  a not-a-number pattern where the plain index clamps), which is why the precondition carries the range.

  `Proof/KernelValue.lean` reads the kernel's run (the body's value of the blocks, the blocks off their arrays, the
  host operations before the region, the 200 row blocks tiling the result), `Proof/RefValue.lean` the reference's, and
  `Proof/PreRange.lean` the range out of the precondition. The three frames are the generated ones.
-/
import proofs.«429387_j23562190586356_1_alg».proof.Defs
import proofs.«429387_j23562190586356_1_alg».proof.Proof.Gen.Kernel
import proofs.«429387_j23562190586356_1_alg».proof.Proof.Gen.Kernel.Skeleton
import proofs.«429387_j23562190586356_1_alg».proof.Proof.Gen.Kernel.Launch
import proofs.«429387_j23562190586356_1_alg».proof.Proof.Gen.Kernel.Points
import proofs.«429387_j23562190586356_1_alg».proof.Proof.Gen.Kernel.Frame
import proofs.«429387_j23562190586356_1_alg».proof.Proof.Gen.KernelIdeal
import proofs.«429387_j23562190586356_1_alg».proof.Proof.Gen.KernelIdeal.Skeleton
import proofs.«429387_j23562190586356_1_alg».proof.Proof.Gen.KernelIdeal.Launch
import proofs.«429387_j23562190586356_1_alg».proof.Proof.Gen.KernelIdeal.Points
import proofs.«429387_j23562190586356_1_alg».proof.Proof.Gen.KernelIdeal.Frame
import proofs.«429387_j23562190586356_1_alg».proof.Proof.Gen.ReferenceIdeal
import proofs.«429387_j23562190586356_1_alg».proof.Proof.Gen.Pre_finite_inputs
import proofs.«429387_j23562190586356_1_alg».proof.Proof.Gen.KernelIdeal.Value
import proofs.«429387_j23562190586356_1_alg».proof.Proof.Gen.ReferenceIdeal.Run
import proofs.«429387_j23562190586356_1_alg».proof.Proof.Gen.ReferenceIdeal.Read
import proofs.«429387_j23562190586356_1_alg».proof.Proof.KernelValue
import proofs.«429387_j23562190586356_1_alg».proof.Proof.RefValue
import proofs.«429387_j23562190586356_1_alg».proof.Proof.PreRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every graph word of every core passes the range test. -/
theorem words_in_range (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Whole.WordsInRange m c :=
  fun i => Cert.Pre_finite_inputs.Range.word_in_range _ _ _ _ _ _ _ _ _ (hpre c) i

/-- Both runs end with the result at the edge model's value of the (agreeing) arguments. -/
theorem algebraic : Cert.algebraic_KernelIdeal_ReferenceIdeal := by
  intro m ρ m' ρ' hpre hagree
  refine ⟨fun c => Cert.KernelIdeal.Whole.resultOf m c, Cert.KernelIdeal.Whole.run m ρ (words_in_range m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq]
  obtain ⟨a0, a1, a2, a3, a4, a5, a6, a7, a8⟩ := hagree c
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
